-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S8000x256 : Shape := ⟨2, ![8000, 256]⟩
abbrev S64000001x1 : Shape := ⟨2, ![64000001, 1]⟩
abbrev S8000x1 : Shape := ⟨2, ![8000, 1]⟩
abbrev S_ : Shape := ⟨0, ![]⟩

class Facts : Prop where
  bcast_S_S8000x256 : S_.BroadcastsInDim S8000x256 (![] : Fin 0 → Fin S8000x256.rank)
  reducesTo_S8000x256_S_d0_1 : S8000x256.ReducesTo [0, 1] S_
  h_S_ : 0 < S_.numel
  bcast_S_S64000001x1 : S_.BroadcastsInDim S64000001x1 (![] : Fin 0 → Fin S64000001x1.rank)
  reducesTo_S64000001x1_S_d0_1 : S64000001x1.ReducesTo [0, 1] S_
  bcast_S_S8000x1 : S_.BroadcastsInDim S8000x1 (![] : Fin 0 → Fin S8000x1.rank)
  reducesTo_S8000x1_S_d0_1 : S8000x1.ReducesTo [0, 1] S_

variable [Facts]

def fn {F : FTy → Type} [FloatOps F] (main_arg0 : IVec S16x2048 32) (main_arg1 : FVec F S8000x256 .f32) (main_arg2 : FVec F S64000001x1 .f32) (main_arg3 : FVec F S8000x1 .f32) : IVec S_ 1 :=
  let main_v0 : FVec F S8000x256 .f32 := Host.absf main_arg1
  let main_cst : FVec F S_ .f32 := constant S_ .f32 0x7F800000#32
  let main_v1 : FVec F S8000x256 .f32 := broadcastInDim S8000x256 ![] bcast_S_S8000x256 main_cst
  let main_v2 : IVec S8000x256 1 := cmpf .olt main_v0 main_v1
  let main_c : IVec S_ 1 := constantI S_ 1 1#1
  let main_v3 : IVec S_ 1 := (fun x v => Host.reduce IntOp.andi x v reducesTo_S8000x256_S_d0_1 h_S_) main_v2 main_c
  let main_v4 : FVec F S64000001x1 .f32 := Host.absf main_arg2
  let main_cst_0 : FVec F S_ .f32 := constant S_ .f32 0x7F800000#32
  let main_v5 : FVec F S64000001x1 .f32 := broadcastInDim S64000001x1 ![] bcast_S_S64000001x1 main_cst_0
  let main_v6 : IVec S64000001x1 1 := cmpf .olt main_v4 main_v5
  let main_c_1 : IVec S_ 1 := constantI S_ 1 1#1
  let main_v7 : IVec S_ 1 := (fun x v => Host.reduce IntOp.andi x v reducesTo_S64000001x1_S_d0_1 h_S_) main_v6 main_c_1
  let main_v8 : IVec S_ 1 := andi main_v3 main_v7
  let main_v9 : FVec F S8000x1 .f32 := Host.absf main_arg3
  let main_cst_2 : FVec F S_ .f32 := constant S_ .f32 0x7F800000#32
  let main_v10 : FVec F S8000x1 .f32 := broadcastInDim S8000x1 ![] bcast_S_S8000x1 main_cst_2
  let main_v11 : IVec S8000x1 1 := cmpf .olt main_v9 main_v10
  let main_c_3 : IVec S_ 1 := constantI S_ 1 1#1
  let main_v12 : IVec S_ 1 := (fun x v => Host.reduce IntOp.andi x v reducesTo_S8000x1_S_d0_1 h_S_) main_v11 main_c_3
  let main_v13 : IVec S_ 1 := andi main_v8 main_v12
  main_v13
-- ==== Kernel.lean ====
abbrev S16x2048 : Shape := ⟨2, ![16, 2048]⟩
abbrev S8000x256 : Shape := ⟨2, ![8000, 256]⟩
abbrev S64000001x1 : Shape := ⟨2, ![64000001, 1]⟩
abbrev S8000x1 : Shape := ⟨2, ![8000, 1]⟩
abbrev S_ : Shape := ⟨0, ![]⟩
abbrev S16x2064 : Shape := ⟨2, ![16, 2064]⟩
abbrev S8 : Shape := ⟨1, ![8]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x16x1 : Shape := ⟨3, ![2048, 16, 1]⟩
abbrev S16x2048x16 : Shape := ⟨3, ![16, 2048, 16]⟩
abbrev S16x2048x1 : Shape := ⟨3, ![16, 2048, 1]⟩
abbrev S16x2048x16x1 : Shape := ⟨4, ![16, 2048, 16, 1]⟩
abbrev S16x2048x16x256 : Shape := ⟨4, ![16, 2048, 16, 256]⟩
abbrev S16x2048x256 : Shape := ⟨3, ![16, 2048, 256]⟩
abbrev S16x256 : Shape := ⟨2, ![16, 256]⟩
abbrev S8x128x16x256 : Shape := ⟨4, ![8, 128, 16, 256]⟩
abbrev S8x128x16x1 : Shape := ⟨4, ![8, 128, 16, 1]⟩
abbrev S8x128x256 : Shape := ⟨3, ![8, 128, 256]⟩
abbrev S8x128x1 : Shape := ⟨3, ![8, 128, 1]⟩
abbrev S8x256 : Shape := ⟨2, ![8, 256]⟩

abbrev nBuf : Space → Nat
  | .hbm => 78
  | .vmem => 11
  | .smem => 0
  | _ => 0

abbrev bufTy : (tb : Table) → Fin (tcTables nBuf tb) → BufTy
  | .hbm, ⟨0, _⟩ => ⟨S16x2048, .i32⟩
  | .hbm, ⟨1, _⟩ => ⟨S8000x256, .f32⟩
  | .hbm, ⟨2, _⟩ => ⟨S64000001x1, .f32⟩
  | .hbm, ⟨3, _⟩ => ⟨S8000x1, .f32⟩
  | .hbm, ⟨4, _⟩ => ⟨S_, .i32⟩
  | .hbm, ⟨5, _⟩ => ⟨S_, .i32⟩
  | .hbm, ⟨6, _⟩ => ⟨S16x2064, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S16, .i32⟩
  | .hbm, ⟨13, _⟩ => ⟨S2048, .i32⟩
  | .hbm, ⟨14, _⟩ => ⟨S2048x1, .i32⟩
  | .hbm, ⟨15, _⟩ => ⟨S1x16, .i32⟩
  | .hbm, ⟨16, _⟩ => ⟨S2048x16, .i32⟩
  | .hbm, ⟨17, _⟩ => ⟨S2048x16, .i32⟩
  | .hbm, ⟨18, _⟩ => ⟨S2048x16, .i32⟩
  | .hbm, ⟨19, _⟩ => ⟨S_, .i32⟩
  | .hbm, ⟨20, _⟩ => ⟨S2048x16, .i32⟩
  | .hbm, ⟨21, _⟩ => ⟨S2048x16, .i1⟩
  | .hbm, ⟨22, _⟩ => ⟨S_, .i32⟩
  | .hbm, ⟨23, _⟩ => ⟨S2048x16, .i32⟩
  | .hbm, ⟨24, _⟩ => ⟨S2048x16, .i32⟩
  | .hbm, ⟨25, _⟩ => ⟨S2048x16, .i32⟩
  | .hbm, ⟨26, _⟩ => ⟨S2048x16x1, .i32⟩
  | .hbm, ⟨27, _⟩ => ⟨S16x2048x16, .i32⟩
  | .hbm, ⟨28, _⟩ => ⟨S16x2048x1, .i32⟩
  | .hbm, ⟨29, _⟩ => ⟨S_, .i32⟩
  | .hbm, ⟨30, _⟩ => ⟨S16x2048x1, .i32⟩
  | .hbm, ⟨31, _⟩ => ⟨S16x2048x1, .i32⟩
  | .hbm, ⟨32, _⟩ => ⟨S16x2048x16, .i32⟩
  | .hbm, ⟨33, _⟩ => ⟨S16x2048x16, .i32⟩
  | .hbm, ⟨34, _⟩ => ⟨S_, .i32⟩
  | .hbm, ⟨35, _⟩ => ⟨S16x2048x16, .i32⟩
  | .hbm, ⟨36, _⟩ => ⟨S16x2048x16, .i1⟩
  | .hbm, ⟨37, _⟩ => ⟨S_, .i32⟩
  | .hbm, ⟨38, _⟩ => ⟨S_, .i32⟩
  | .hbm, ⟨39, _⟩ => ⟨S16x2048x16, .i32⟩
  | .hbm, ⟨40, _⟩ => ⟨S16x2048x16, .i32⟩
  | .hbm, ⟨41, _⟩ => ⟨S_, .i32⟩
  | .hbm, ⟨42, _⟩ => ⟨S16x2048x16, .i32⟩
  | .hbm, ⟨43, _⟩ => ⟨S16x2048x16, .i1⟩
  | .hbm, ⟨44, _⟩ => ⟨S_, .i32⟩
  | .hbm, ⟨45, _⟩ => ⟨S16x2048x16, .i32⟩
  | .hbm, ⟨46, _⟩ => ⟨S16x2048x16, .i32⟩
  | .hbm, ⟨47, _⟩ => ⟨S16x2048x16, .i32⟩
  | .hbm, ⟨48, _⟩ => ⟨S16x2048x16x1, .i32⟩
  | .hbm, ⟨49, _⟩ => ⟨S16x2048x16x256, .f32⟩
  | .hbm, ⟨50, _⟩ => ⟨S_, .i32⟩
  | .hbm, ⟨51, _⟩ => ⟨S16x2048x16, .i32⟩
  | .hbm, ⟨52, _⟩ => ⟨S16x2048x16, .i1⟩
  | .hbm, ⟨53, _⟩ => ⟨S_, .i32⟩
  | .hbm, ⟨54, _⟩ => ⟨S16x2048x16, .i32⟩
  | .hbm, ⟨55, _⟩ => ⟨S16x2048x16, .i32⟩
  | .hbm, ⟨56, _⟩ => ⟨S16x2048x16, .i32⟩
  | .hbm, ⟨57, _⟩ => ⟨S16x2048x16x1, .i32⟩
  | .hbm, ⟨58, _⟩ => ⟨S16x2048x16x1, .f32⟩
  | .hbm, ⟨59, _⟩ => ⟨S_, .i32⟩
  | .hbm, ⟨60, _⟩ => ⟨S16x2048, .i32⟩
  | .hbm, ⟨61, _⟩ => ⟨S16x2048, .i1⟩
  | .hbm, ⟨62, _⟩ => ⟨S_, .i32⟩
  | .hbm, ⟨63, _⟩ => ⟨S16x2048, .i32⟩
  | .hbm, ⟨64, _⟩ => ⟨S16x2048, .i32⟩
  | .hbm, ⟨65, _⟩ => ⟨S16x2048, .i32⟩
  | .hbm, ⟨66, _⟩ => ⟨S16x2048x1, .i32⟩
  | .hbm, ⟨67, _⟩ => ⟨S16x2048x256, .f32⟩
  | .hbm, ⟨68, _⟩ => ⟨S_, .i32⟩
  | .hbm, ⟨69, _⟩ => ⟨S16x2048, .i32⟩
  | .hbm, ⟨70, _⟩ => ⟨S16x2048, .i1⟩
  | .hbm, ⟨71, _⟩ => ⟨S_, .i32⟩
  | .hbm, ⟨72, _⟩ => ⟨S16x2048, .i32⟩
  | .hbm, ⟨73, _⟩ => ⟨S16x2048, .i32⟩
  | .hbm, ⟨74, _⟩ => ⟨S16x2048, .i32⟩
  | .hbm, ⟨75, _⟩ => ⟨S16x2048x1, .i32⟩
  | .hbm, ⟨76, _⟩ => ⟨S16x2048x1, .f32⟩
  | .hbm, ⟨77, _⟩ => ⟨S16x256, .f32⟩
  | .local _ .vmem, ⟨0, _⟩ => ⟨S8x128x16x256, .f32⟩
  | .local _ .vmem, ⟨1, _⟩ => ⟨S8x128x16x256, .f32⟩
  | .local _ .vmem, ⟨2, _⟩ => ⟨S8x128x16x1, .f32⟩
  | .local _ .vmem, ⟨3, _⟩ => ⟨S8x128x16x1, .f32⟩
  | .local _ .vmem, ⟨4, _⟩ => ⟨S8x128x256, .f32⟩
  | .local _ .vmem, ⟨5, _⟩ => ⟨S8x128x256, .f32⟩
  | .local _ .vmem, ⟨6, _⟩ => ⟨S8x128x1, .f32⟩
  | .local _ .vmem, ⟨7, _⟩ => ⟨S8x128x1, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_20 : BitVec 32 := 0#32
  let v29 : BitVec 1 := Scalar.cmpi .ne v28 c0_i32_20
  v29

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S16x2048_S16x2064_000_880 : S16x2048.Pads (![0, 8] : Fin 2 → Nat) ![0, 8] ![0, 0] S16x2064
  h_S_ : 0 < S_.numel
  bcast_S_S8 : S_.BroadcastsInDim S8 (![] : Fin 0 → Fin S8.rank)
  concatenates_S8_S8_S16_d0 : Shape.Concatenates [S8, S8] S16 0
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x16_0_1_2 : S16x2048x1.BroadcastsInDim S16x2048x16 (![0, 1, 2] : Fin 3 → Fin S16x2048x16.rank)
  bcast_S_S16x2048x16 : S_.BroadcastsInDim S16x2048x16 (![] : Fin 0 → Fin S16x2048x16.rank)
  bcast_S16x2048x16_S16x2048x16x1_0_1_2 : S16x2048x16.BroadcastsInDim S16x2048x16x1 (![0, 1, 2] : Fin 3 → Fin S16x2048x16x1.rank)
  bcast_S_S16x2048 : S_.BroadcastsInDim S16x2048 (![] : Fin 0 → Fin S16x2048.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x128x16x256_S8x128x16x256_0_0_0_0 : ∀ a, (![0, 0, 0, 0] : Fin 4 → Nat) a + S8x128x16x256.size a ≤ S8x128x16x256.size a
  h_S8x128x16x256 : 0 < S8x128x16x256.numel
  shapeCasts_S8x128x16x256_S8x128x16x256 : S8x128x16x256.ShapeCasts S8x128x16x256
  inb_S8x128x16x1_S8x128x16x1_0_0_0_0 : ∀ a, (![0, 0, 0, 0] : Fin 4 → Nat) a + S8x128x16x1.size a ≤ S8x128x16x1.size a
  h_S8x128x16x1 : 0 < S8x128x16x1.numel
  shapeCasts_S8x128x16x1_S8x128x16x1 : S8x128x16x1.ShapeCasts S8x128x16x1
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  broadcasts_S8x128x16x1_S8x128x16x256 : S8x128x16x1.Broadcasts S8x128x16x256
  reduces_S8x128x16x256_S8x128x256 : S8x128x16x256.Reduces [2] S8x128x256
  broadcasts_S8x128x1_S8x128x256 : S8x128x1.Broadcasts S8x128x256
  reduces_S8x128x256_S8x256 : S8x128x256.Reduces [1] S8x256
  gather_S16x2064_S2048x16x1_S16x2048x16_0_1_n_n_1_2_161_wf : GatherDims.WF S16x2064 S2048x16x1 S16x2048x16 [0] [1] [] [1] [] 2 ![16, 1]
  gather_S8000x256_S16x2048x16x1_S16x2048x16x256_3_0_n_n_0_3_1256_wf : GatherDims.WF S8000x256 S16x2048x16x1 S16x2048x16x256 [3] [0] [] [0] [] 3 ![1, 256]
  gather_S64000001x1_S16x2048x16x1_S16x2048x16x1_3_0_n_n_0_3_11_wf : GatherDims.WF S64000001x1 S16x2048x16x1 S16x2048x16x1 [3] [0] [] [0] [] 3 ![1, 1]
  gather_S8000x256_S16x2048x1_S16x2048x256_2_0_n_n_0_2_1256_wf : GatherDims.WF S8000x256 S16x2048x1 S16x2048x256 [2] [0] [] [0] [] 2 ![1, 256]
  gather_S8000x1_S16x2048x1_S16x2048x1_2_0_n_n_0_2_11_wf : GatherDims.WF S8000x1 S16x2048x1 S16x2048x1 [2] [0] [] [0] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x256.size a ≤ S16x2048x16x256.size a
  hwx0_0 : ∀ i : grid0.Coords, EltTy.bits .f32 = 32 ∨ (Rect.block (s := S16x2048x16x256) S8x128x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x16x1.size a ≤ S16x2048x16x1.size a
  hwx0_1 : ∀ i : grid0.Coords, EltTy.bits .f32 = 32 ∨ (Rect.block (s := S16x2048x16x1) S8x128x16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x256.size a ≤ S16x2048x256.size a
  hwx0_2 : ∀ i : grid0.Coords, EltTy.bits .f32 = 32 ∨ (Rect.block (s := S16x2048x256) S8x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1.size a ≤ S16x2048x1.size a
  hwx0_3 : ∀ i : grid0.Coords, EltTy.bits .f32 = 32 ∨ (Rect.block (s := S16x2048x1) S8x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S16x256.size a
  hwx0_4 : ∀ i : grid0.Coords, EltTy.bits .f32 = 32 ∨ (Rect.block (s := S16x256) S8x256.size (cc0_transform_4 i) (hinb0_4 i)).WholeWords (EltTy.packing .f32)

variable [Facts₀]

def gather_S16x2064_S2048x16x1_S16x2048x16_0_1_n_n_1_2_161 : GatherDims S16x2064 S2048x16x1 S16x2048x16 where
  offsetDims := [0]
  collapsedSliceDims := [1]
  operandBatchingDims := []
  startIndicesBatchingDims := []
  startIndexMap := [1]
  indexVectorDim := 2
  sliceSizes := ![16, 1]
  wf := gather_S16x2064_S2048x16x1_S16x2048x16_0_1_n_n_1_2_161_wf
def gather_S8000x256_S16x2048x16x1_S16x2048x16x256_3_0_n_n_0_3_1256 : GatherDims S8000x256 S16x2048x16x1 S16x2048x16x256 where
  offsetDims := [3]
  collapsedSliceDims := [0]
  operandBatchingDims := []
  startIndicesBatchingDims := []
  startIndexMap := [0]
  indexVectorDim := 3
  sliceSizes := ![1, 256]
  wf := gather_S8000x256_S16x2048x16x1_S16x2048x16x256_3_0_n_n_0_3_1256_wf
def gather_S64000001x1_S16x2048x16x1_S16x2048x16x1_3_0_n_n_0_3_11 : GatherDims S64000001x1 S16x2048x16x1 S16x2048x16x1 where
  offsetDims := [3]
  collapsedSliceDims := [0]
  operandBatchingDims := []
  startIndicesBatchingDims := []
  startIndexMap := [0]
  indexVectorDim := 3
  sliceSizes := ![1, 1]
  wf := gather_S64000001x1_S16x2048x16x1_S16x2048x16x1_3_0_n_n_0_3_11_wf
def gather_S8000x256_S16x2048x1_S16x2048x256_2_0_n_n_0_2_1256 : GatherDims S8000x256 S16x2048x1 S16x2048x256 where
  offsetDims := [2]
  collapsedSliceDims := [0]
  operandBatchingDims := []
  startIndicesBatchingDims := []
  startIndexMap := [0]
  indexVectorDim := 2
  sliceSizes := ![1, 256]
  wf := gather_S8000x256_S16x2048x1_S16x2048x256_2_0_n_n_0_2_1256_wf
def gather_S8000x1_S16x2048x1_S16x2048x1_2_0_n_n_0_2_11 : GatherDims S8000x1 S16x2048x1 S16x2048x1 where
  offsetDims := [2]
  collapsedSliceDims := [0]
  operandBatchingDims := []
  startIndicesBatchingDims := []
  startIndexMap := [0]
  indexVectorDim := 2
  sliceSizes := ![1, 1]
  wf := gather_S8000x1_S16x2048x1_S16x2048x1_2_0_n_n_0_2_11_wf

abbrev win0_0 : Pipeline.Window sig grid0 :=
  Pipeline.Window.ofSpec (Memref.whole main_v33) S8x128x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S8x128x16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S8x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S8x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048 : Shape := ⟨2, ![16, 2048]⟩
abbrev S8000x256 : Shape := ⟨2, ![8000, 256]⟩
abbrev S64000001x1 : Shape := ⟨2, ![64000001, 1]⟩
abbrev S8000x1 : Shape := ⟨2, ![8000, 1]⟩
abbrev S_ : Shape := ⟨0, ![]⟩
abbrev S16x2064 : Shape := ⟨2, ![16, 2064]⟩
abbrev S8 : Shape := ⟨1, ![8]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x16x1 : Shape := ⟨3, ![2048, 16, 1]⟩
abbrev S16x2048x16 : Shape := ⟨3, ![16, 2048, 16]⟩
abbrev S16x2048x1 : Shape := ⟨3, ![16, 2048, 1]⟩
abbrev S16x2048x16x1 : Shape := ⟨4, ![16, 2048, 16, 1]⟩
abbrev S16x2048x16x256 : Shape := ⟨4, ![16, 2048, 16, 256]⟩
abbrev S16x2048x256 : Shape := ⟨3, ![16, 2048, 256]⟩
abbrev S16x256 : Shape := ⟨2, ![16, 256]⟩

abbrev nBuf : Space → Nat
  | .hbm => 91
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S8000x256, .f32⟩
  | .hbm, ⟨2, _⟩ => ⟨S64000001x1, .f32⟩
  | .hbm, ⟨3, _⟩ => ⟨S8000x1, .f32⟩
  | .hbm, ⟨4, _⟩ => ⟨S_, .i32⟩
  | .hbm, ⟨5, _⟩ => ⟨S_, .i32⟩
  | .hbm, ⟨6, _⟩ => ⟨S16x2064, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S16, .i32⟩
  | .hbm, ⟨13, _⟩ => ⟨S2048, .i32⟩
  | .hbm, ⟨14, _⟩ => ⟨S2048x1, .i32⟩
  | .hbm, ⟨15, _⟩ => ⟨S1x16, .i32⟩
  | .hbm, ⟨16, _⟩ => ⟨S2048x16, .i32⟩
  | .hbm, ⟨17, _⟩ => ⟨S2048x16, .i32⟩
  | .hbm, ⟨18, _⟩ => ⟨S2048x16, .i32⟩
  | .hbm, ⟨19, _⟩ => ⟨S_, .i32⟩
  | .hbm, ⟨20, _⟩ => ⟨S2048x16, .i32⟩
  | .hbm, ⟨21, _⟩ => ⟨S2048x16, .i1⟩
  | .hbm, ⟨22, _⟩ => ⟨S_, .i32⟩
  | .hbm, ⟨23, _⟩ => ⟨S2048x16, .i32⟩
  | .hbm, ⟨24, _⟩ => ⟨S2048x16, .i32⟩
  | .hbm, ⟨25, _⟩ => ⟨S2048x16, .i32⟩
  | .hbm, ⟨26, _⟩ => ⟨S2048x16x1, .i32⟩
  | .hbm, ⟨27, _⟩ => ⟨S16x2048x16, .i32⟩
  | .hbm, ⟨28, _⟩ => ⟨S16x2048x1, .i32⟩
  | .hbm, ⟨29, _⟩ => ⟨S_, .i32⟩
  | .hbm, ⟨30, _⟩ => ⟨S16x2048x1, .i32⟩
  | .hbm, ⟨31, _⟩ => ⟨S16x2048x1, .i32⟩
  | .hbm, ⟨32, _⟩ => ⟨S16x2048x16, .i32⟩
  | .hbm, ⟨33, _⟩ => ⟨S16x2048x16, .i32⟩
  | .hbm, ⟨34, _⟩ => ⟨S_, .i32⟩
  | .hbm, ⟨35, _⟩ => ⟨S16x2048x16, .i32⟩
  | .hbm, ⟨36, _⟩ => ⟨S16x2048x16, .i1⟩
  | .hbm, ⟨37, _⟩ => ⟨S_, .i32⟩
  | .hbm, ⟨38, _⟩ => ⟨S_, .i32⟩
  | .hbm, ⟨39, _⟩ => ⟨S16x2048x16, .i32⟩
  | .hbm, ⟨40, _⟩ => ⟨S16x2048x16, .i32⟩
  | .hbm, ⟨41, _⟩ => ⟨S_, .i32⟩
  | .hbm, ⟨42, _⟩ => ⟨S16x2048x16, .i32⟩
  | .hbm, ⟨43, _⟩ => ⟨S16x2048x16, .i1⟩
  | .hbm, ⟨44, _⟩ => ⟨S_, .i32⟩
  | .hbm, ⟨45, _⟩ => ⟨S16x2048x16, .i32⟩
  | .hbm, ⟨46, _⟩ => ⟨S16x2048x16, .i32⟩
  | .hbm, ⟨47, _⟩ => ⟨S16x2048x16, .i32⟩
  | .hbm, ⟨48, _⟩ => ⟨S16x2048x16x1, .i32⟩
  | .hbm, ⟨49, _⟩ => ⟨S16x2048x16x256, .f32⟩
  | .hbm, ⟨50, _⟩ => ⟨S_, .i32⟩
  | .hbm, ⟨51, _⟩ => ⟨S16x2048x16, .i32⟩
  | .hbm, ⟨52, _⟩ => ⟨S16x2048x16, .i1⟩
  | .hbm, ⟨53, _⟩ => ⟨S_, .i32⟩
  | .hbm, ⟨54, _⟩ => ⟨S16x2048x16, .i32⟩
  | .hbm, ⟨55, _⟩ => ⟨S16x2048x16, .i32⟩
  | .hbm, ⟨56, _⟩ => ⟨S16x2048x16, .i32⟩
  | .hbm, ⟨57, _⟩ => ⟨S16x2048x16x1, .i32⟩
  | .hbm, ⟨58, _⟩ => ⟨S16x2048x16x1, .f32⟩
  | .hbm, ⟨59, _⟩ => ⟨S16x2048x16x256, .f32⟩
  | .hbm, ⟨60, _⟩ => ⟨S16x2048x16x256, .f32⟩
  | .hbm, ⟨61, _⟩ => ⟨S_, .f32⟩
  | .hbm, ⟨62, _⟩ => ⟨S16x2048x256, .f32⟩
  | .hbm, ⟨63, _⟩ => ⟨S_, .i32⟩
  | .hbm, ⟨64, _⟩ => ⟨S16x2048, .i32⟩
  | .hbm, ⟨65, _⟩ => ⟨S16x2048, .i1⟩
  | .hbm, ⟨66, _⟩ => ⟨S_, .i32⟩
  | .hbm, ⟨67, _⟩ => ⟨S16x2048, .i32⟩
  | .hbm, ⟨68, _⟩ => ⟨S16x2048, .i32⟩
  | .hbm, ⟨69, _⟩ => ⟨S16x2048, .i32⟩
  | .hbm, ⟨70, _⟩ => ⟨S16x2048x1, .i32⟩
  | .hbm, ⟨71, _⟩ => ⟨S16x2048x256, .f32⟩
  | .hbm, ⟨72, _⟩ => ⟨S_, .i32⟩
  | .hbm, ⟨73, _⟩ => ⟨S16x2048, .i32⟩
  | .hbm, ⟨74, _⟩ => ⟨S16x2048, .i1⟩
  | .hbm, ⟨75, _⟩ => ⟨S_, .i32⟩
  | .hbm, ⟨76, _⟩ => ⟨S16x2048, .i32⟩
  | .hbm, ⟨77, _⟩ => ⟨S16x2048, .i32⟩
  | .hbm, ⟨78, _⟩ => ⟨S16x2048, .i32⟩
  | .hbm, ⟨79, _⟩ => ⟨S16x2048x1, .i32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x256, .f32⟩
  | .hbm, ⟨85, _⟩ => ⟨S16x2048x256, .f32⟩
  | .hbm, ⟨86, _⟩ => ⟨S16x2048x256, .f32⟩
  | .hbm, ⟨87, _⟩ => ⟨S16x2048x256, .f32⟩
  | .hbm, ⟨88, _⟩ => ⟨S16x2048x256, .f32⟩
  | .hbm, ⟨89, _⟩ => ⟨S_, .f32⟩
  | .hbm, ⟨90, _⟩ => ⟨S16x256, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  pads_S16x2048_S16x2064_000_880 : S16x2048.Pads (![0, 8] : Fin 2 → Nat) ![0, 8] ![0, 0] S16x2064
  h_S_ : 0 < S_.numel
  bcast_S_S8 : S_.BroadcastsInDim S8 (![] : Fin 0 → Fin S8.rank)
  concatenates_S8_S8_S16_d0 : Shape.Concatenates [S8, S8] S16 0
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S2048x16_S2048x16x1_0_1 : S2048x16.BroadcastsInDim S2048x16x1 (![0, 1] : Fin 2 → Fin S2048x16x1.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x16_0_1_2 : S16x2048x1.BroadcastsInDim S16x2048x16 (![0, 1, 2] : Fin 3 → Fin S16x2048x16.rank)
  bcast_S_S16x2048x16 : S_.BroadcastsInDim S16x2048x16 (![] : Fin 0 → Fin S16x2048x16.rank)
  bcast_S16x2048x16_S16x2048x16x1_0_1_2 : S16x2048x16.BroadcastsInDim S16x2048x16x1 (![0, 1, 2] : Fin 3 → Fin S16x2048x16x1.rank)
  bcast_S16x2048x16x1_S16x2048x16x256_0_1_2_3 : S16x2048x16x1.BroadcastsInDim S16x2048x16x256 (![0, 1, 2, 3] : Fin 4 → Fin S16x2048x16x256.rank)
  reducesTo_S16x2048x16x256_S16x2048x256_d2 : S16x2048x16x256.ReducesTo [2] S16x2048x256
  bcast_S_S16x2048 : S_.BroadcastsInDim S16x2048 (![] : Fin 0 → Fin S16x2048.rank)
  bcast_S16x2048x1_S16x2048x256_0_1_2 : S16x2048x1.BroadcastsInDim S16x2048x256 (![0, 1, 2] : Fin 3 → Fin S16x2048x256.rank)
  reducesTo_S16x2048x256_S16x256_d1 : S16x2048x256.ReducesTo [1] S16x256
  gather_S16x2064_S2048x16x1_S16x2048x16_0_1_n_n_1_2_161_wf : GatherDims.WF S16x2064 S2048x16x1 S16x2048x16 [0] [1] [] [1] [] 2 ![16, 1]
  gather_S8000x256_S16x2048x16x1_S16x2048x16x256_3_0_n_n_0_3_1256_wf : GatherDims.WF S8000x256 S16x2048x16x1 S16x2048x16x256 [3] [0] [] [0] [] 3 ![1, 256]
  gather_S64000001x1_S16x2048x16x1_S16x2048x16x1_3_0_n_n_0_3_11_wf : GatherDims.WF S64000001x1 S16x2048x16x1 S16x2048x16x1 [3] [0] [] [0] [] 3 ![1, 1]
  gather_S8000x256_S16x2048x1_S16x2048x256_2_0_n_n_0_2_1256_wf : GatherDims.WF S8000x256 S16x2048x1 S16x2048x256 [2] [0] [] [0] [] 2 ![1, 256]
  gather_S8000x1_S16x2048x1_S16x2048x1_2_0_n_n_0_2_11_wf : GatherDims.WF S8000x1 S16x2048x1 S16x2048x1 [2] [0] [] [0] [] 2 ![1, 1]

variable [Facts₀]

def gather_S16x2064_S2048x16x1_S16x2048x16_0_1_n_n_1_2_161 : GatherDims S16x2064 S2048x16x1 S16x2048x16 where
  offsetDims := [0]
  collapsedSliceDims := [1]
  operandBatchingDims := []
  startIndicesBatchingDims := []
  startIndexMap := [1]
  indexVectorDim := 2
  sliceSizes := ![16, 1]
  wf := gather_S16x2064_S2048x16x1_S16x2048x16_0_1_n_n_1_2_161_wf
def gather_S8000x256_S16x2048x16x1_S16x2048x16x256_3_0_n_n_0_3_1256 : GatherDims S8000x256 S16x2048x16x1 S16x2048x16x256 where
  offsetDims := [3]
  collapsedSliceDims := [0]
  operandBatchingDims := []
  startIndicesBatchingDims := []
  startIndexMap := [0]
  indexVectorDim := 3
  sliceSizes := ![1, 256]
  wf := gather_S8000x256_S16x2048x16x1_S16x2048x16x256_3_0_n_n_0_3_1256_wf
def gather_S64000001x1_S16x2048x16x1_S16x2048x16x1_3_0_n_n_0_3_11 : GatherDims S64000001x1 S16x2048x16x1 S16x2048x16x1 where
  offsetDims := [3]
  collapsedSliceDims := [0]
  operandBatchingDims := []
  startIndicesBatchingDims := []
  startIndexMap := [0]
  indexVectorDim := 3
  sliceSizes := ![1, 1]
  wf := gather_S64000001x1_S16x2048x16x1_S16x2048x16x1_3_0_n_n_0_3_11_wf
def gather_S8000x256_S16x2048x1_S16x2048x256_2_0_n_n_0_2_1256 : GatherDims S8000x256 S16x2048x1 S16x2048x256 where
  offsetDims := [2]
  collapsedSliceDims := [0]
  operandBatchingDims := []
  startIndicesBatchingDims := []
  startIndexMap := [0]
  indexVectorDim := 2
  sliceSizes := ![1, 256]
  wf := gather_S8000x256_S16x2048x1_S16x2048x256_2_0_n_n_0_2_1256_wf
def gather_S8000x1_S16x2048x1_S16x2048x1_2_0_n_n_0_2_11 : GatherDims S8000x1 S16x2048x1 S16x2048x1 where
  offsetDims := [2]
  collapsedSliceDims := [0]
  operandBatchingDims := []
  startIndicesBatchingDims := []
  startIndexMap := [0]
  indexVectorDim := 2
  sliceSizes := ![1, 1]
  wf := gather_S8000x1_S16x2048x1_S16x2048x1_2_0_n_n_0_2_11_wf

class Facts : Prop extends Facts₀ where

variable [Facts]
-- ==== Proof.Pieces.lean ====
/-
  What each control case of the kernel body leaves behind, as values.  The body keeps a running [8,256] accumulator in
  a scratch buffer: at the first tile of a batch half it stores zeros and then the zeros plus the tile's sum; at every
  later tile it stores the previous contents plus the tile's sum; at the last tile it also copies the accumulator to the
  output block.  In every case the final contents are the one accumulating store's value, applied to what the
  accumulator held before (zeros, at a first tile).
-/
import proofs.«107220_j77670188581209_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle tile: the accumulator ends at the accumulating store's value over what it held. -/
theorem acc_mid (c : Dev nD) (i : grid0.Coords) (a2 : Memref sig .tc .vmem S8x128x16x256 .f32) (h2 : a2.IsWhole)
    (a3 : Memref sig .tc .vmem S8x128x16x1 .f32) (h3 : a3.IsWhole) (a4 : Memref sig .tc .vmem S8x128x256 .f32) (h4 : a4.IsWhole)
    (a5 : Memref sig .tc .vmem S8x128x1 .f32) (h5 : a5.IsWhole) (a6 : Memref sig .tc .vmem S8x256 .f32) (h6 : a6.IsWhole)
    (a7 : Memref sig .tc .vmem S8x256 .f32) (h7 : a7.IsWhole) (hc0 : ¬cond0_0 i) (hc1 : ¬cond0_1 i)
    (x0 : Vec F S8x128x16x256 .f32) (x1 : Vec F S8x128x16x1 .f32) (x2 : Vec F S8x128x256 .f32) (x3 : Vec F S8x128x1 .f32) (xs0 : Vec F S8x256 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S8x128x16x256) hz4, View.ld_unit_zero (S := S8x128x16x1) hz4, View.ld_unit_zero (S := S8x128x256) hz3,
    View.ld_unit_zero (S := S8x128x1) hz3, View.ld_unit_zero (S := S8x256) hz2, View.readCov_unit_zero (S := S8x256) _ hz2]

/-- A last tile: the same for the accumulator … -/
theorem acc_last (c : Dev nD) (i : grid0.Coords) (a2 : Memref sig .tc .vmem S8x128x16x256 .f32) (h2 : a2.IsWhole)
    (a3 : Memref sig .tc .vmem S8x128x16x1 .f32) (h3 : a3.IsWhole) (a4 : Memref sig .tc .vmem S8x128x256 .f32) (h4 : a4.IsWhole)
    (a5 : Memref sig .tc .vmem S8x128x1 .f32) (h5 : a5.IsWhole) (a6 : Memref sig .tc .vmem S8x256 .f32) (h6 : a6.IsWhole)
    (a7 : Memref sig .tc .vmem S8x256 .f32) (h7 : a7.IsWhole) (hc0 : ¬cond0_0 i) (hc1 : cond0_1 i)
    (x0 : Vec F S8x128x16x256 .f32) (x1 : Vec F S8x128x16x1 .f32) (x2 : Vec F S8x128x256 .f32) (x3 : Vec F S8x128x1 .f32) (xs0 : Vec F S8x256 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h6.read_unread, h7.read_unread,
    View.ld_unit_zero (S := S8x128x16x256) hz4, View.ld_unit_zero (S := S8x128x16x1) hz4, View.ld_unit_zero (S := S8x128x256) hz3,
    View.ld_unit_zero (S := S8x128x1) hz3, View.ld_unit_zero (S := S8x256) hz2, View.readCov_unit_zero (S := S8x256) _ hz2]

/-- … and the output block receives a copy of it. -/
theorem out_last (c : Dev nD) (i : grid0.Coords) (a2 : Memref sig .tc .vmem S8x128x16x256 .f32) (h2 : a2.IsWhole)
    (a3 : Memref sig .tc .vmem S8x128x16x1 .f32) (h3 : a3.IsWhole) (a4 : Memref sig .tc .vmem S8x128x256 .f32) (h4 : a4.IsWhole)
    (a5 : Memref sig .tc .vmem S8x128x1 .f32) (h5 : a5.IsWhole) (a6 : Memref sig .tc .vmem S8x256 .f32) (h6 : a6.IsWhole)
    (a7 : Memref sig .tc .vmem S8x256 .f32) (h7 : a7.IsWhole) (hc0 : ¬cond0_0 i) (hc1 : cond0_1 i)
    (x0 : Vec F S8x128x16x256 .f32) (x1 : Vec F S8x128x16x1 .f32) (x2 : Vec F S8x128x256 .f32) (x3 : Vec F S8x128x1 .f32) (xs0 : Vec F S8x256 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h6.read_unread, h7.read_unread,
    View.ld_unit_zero (S := S8x128x16x256) hz4, View.ld_unit_zero (S := S8x128x16x1) hz4, View.ld_unit_zero (S := S8x128x256) hz3,
    View.ld_unit_zero (S := S8x128x1) hz3, View.ld_unit_zero (S := S8x256) hz2, View.readCov_unit_zero (S := S8x256) _ hz2]

/-- A first tile: the accumulator is reset to zeros and the tile added to that. -/
theorem acc_first (c : Dev nD) (i : grid0.Coords) (a2 : Memref sig .tc .vmem S8x128x16x256 .f32) (h2 : a2.IsWhole)
    (a3 : Memref sig .tc .vmem S8x128x16x1 .f32) (h3 : a3.IsWhole) (a4 : Memref sig .tc .vmem S8x128x256 .f32) (h4 : a4.IsWhole)
    (a5 : Memref sig .tc .vmem S8x128x1 .f32) (h5 : a5.IsWhole) (a6 : Memref sig .tc .vmem S8x256 .f32) (h6 : a6.IsWhole)
    (a7 : Memref sig .tc .vmem S8x256 .f32) (h7 : a7.IsWhole) (hc0 : cond0_0 i) (hc1 : ¬cond0_1 i)
    (x0 : Vec F S8x128x16x256 .f32) (x1 : Vec F S8x128x16x1 .f32) (x2 : Vec F S8x128x256 .f32) (x3 : Vec F S8x128x1 .f32) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S8x256) hz2, View.readCov_unit_zero (S := S8x256) _ hz2]
  simp only [View.readAt_eq_ld, h2.read_unread, h3.read_unread, h4.read_unread, h5.read_unread, h6.read_unread, h7.read_unread,
    View.ld_unit_zero (S := S8x128x16x256) hz4, View.ld_unit_zero (S := S8x128x16x1) hz4, View.ld_unit_zero (S := S8x128x256) hz3,
    View.ld_unit_zero (S := S8x128x1) hz3, View.ld_unit_zero (S := S8x256) hz2, View.readCov_unit_zero (S := S8x256) _ hz2]

end Cert.KernelIdeal.Pieces

end
-- ==== Proof.Spec.lean ====
/-
  The specification both programs meet, as one function of the four gathered arrays.

  With Ra : [16,2048,16,256] the neighbour embeddings, Ean : [16,2048,16,1] the edge weights, Rn : [16,2048,256] the
  node's own embedding and Nn : [16,2048,1] the node gate, a token (b, l) contributes to feature d

      y(b,l,d) = (1 - Nn(b,l)) · max_{n<16} (Ra(b,l,n,d) · Ean(b,l,n)) + Nn(b,l) · Rn(b,l,d)

  (the maximum taken from -∞ over the sixteen neighbours), and the result is out(b,d) = ∑_{l<2048} y(b,l,d).
  Everything is over the extended reals; only commutativity and associativity of + are used, so no finiteness is needed.

  The kernel walks the 2048 tokens of a batch half in sixteen tiles of 128: 'tileSum' is one tile's contribution as a
  function of the grid position n = 16·p + s (batch half p, tile s), defined for every natural n by reducing the
  coordinates modulo their extents, and 'sum_tiles' says that sixteen consecutive tiles make up the whole token sum.
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic

noncomputable section

open scoped BigOperators

namespace Cert.GatedSum

open Idealize.ShloMosaic Idealize.ShloMosaic.ValueIdx

/-- The four gathered arrays' index sets. -/
abbrev SRa : Shape := ⟨4, ![16, 2048, 16, 256]⟩
abbrev SEan : Shape := ⟨4, ![16, 2048, 16, 1]⟩
abbrev SRn : Shape := ⟨3, ![16, 2048, 256]⟩
abbrev SNn : Shape := ⟨3, ![16, 2048, 1]⟩
abbrev SOut : Shape := ⟨2, ![16, 256]⟩

/-- The float constants the programs spell, as extended reals: 1.0, -∞ and 0.0. -/
abbrev one : EReal := Ideal.ofBits .f32 0x3F800000#32
abbrev negInf : EReal := Ideal.ofBits .f32 0xFF800000#32
abbrev zero : EReal := Ideal.ofBits .f32 0x00000000#32

/-- The largest edge-weighted neighbour embedding of token (b, l) at feature d, from -∞. -/
def nbrMax (ra : SRa.Idx → EReal) (ean : SEan.Idx → EReal) (b : Fin 16) (l : Fin 2048) (d : Fin 256) : EReal :=
  (Finset.univ : Finset (Fin 16)).fold max negInf (fun n => ra (ix4 b l n d) * ean (ix4 b l n (0 : Fin 1)))

/-- Token (b, l)'s gated blend at feature d. -/
def gated (ra : SRa.Idx → EReal) (ean : SEan.Idx → EReal) (rn : SRn.Idx → EReal) (nn : SNn.Idx → EReal)
    (b : Fin 16) (l : Fin 2048) (d : Fin 256) : EReal :=
  (one - nn (ix3 b l (0 : Fin 1))) * nbrMax ra ean b l d + nn (ix3 b l (0 : Fin 1)) * rn (ix3 b l d)

/-- The result: the blend summed over the 2048 tokens of a batch row. -/
def total (ra : SRa.Idx → EReal) (ean : SEan.Idx → EReal) (rn : SRn.Idx → EReal) (nn : SNn.Idx → EReal) :
    SOut.Idx → EReal :=
  fun i => ∑ l : Fin 2048, gated ra ean rn nn (i 0) l (i 1)

/-- A natural number as a batch row / token position, reduced modulo the extent (the identity below it). -/
abbrev rowOf (x : ℕ) : Fin 16 := ⟨x % 16, Nat.mod_lt _ (by decide)⟩
abbrev tokOf (x : ℕ) : Fin 2048 := ⟨x % 2048, Nat.mod_lt _ (by decide)⟩

/-- What grid position n = 16·p + s adds to row r (of 8) of its batch half, feature d: the 128 tokens of tile s. -/
def tileSum (ra : SRa.Idx → EReal) (ean : SEan.Idx → EReal) (rn : SRn.Idx → EReal) (nn : SNn.Idx → EReal)
    (n : ℕ) (r : Fin 8) (d : Fin 256) : EReal :=
  ∑ j : Fin 128, gated ra ean rn nn (rowOf (8 * (n / 16) + r.val)) (tokOf (128 * (n % 16) + j.val)) d

/-- A sum over the first 128·n naturals, tile by tile. -/
theorem sum_range_tiles (f : ℕ → EReal) : ∀ n : ℕ,
    ∑ x ∈ Finset.range (128 * n), f x = ∑ s ∈ Finset.range n, ∑ j ∈ Finset.range 128, f (128 * s + j)
  | 0 => by simp
  | n + 1 => by
    rw [show 128 * (n + 1) = 128 * n + 128 from by ring, Finset.sum_range_add, sum_range_tiles f n,
      Finset.sum_range_succ (fun s => ∑ j ∈ Finset.range 128, f (128 * s + j)) n]

/-- Sixteen consecutive tiles are the whole token axis. -/
theorem sum_tiles (f : Fin 2048 → EReal) :
    ∑ l : Fin 2048, f l = ∑ s ∈ Finset.range 16, ∑ j : Fin 128, f (tokOf (128 * s + j.val)) := by
  have h1 : ∑ l : Fin 2048, f l = ∑ x ∈ Finset.range 2048, f (tokOf x) := by
    rw [Finset.sum_range (fun x => f (tokOf x))]
    refine Finset.sum_congr rfl fun l _ => congrArg f (Fin.ext ?_)
    exact (Nat.mod_eq_of_lt l.isLt).symm
  rw [h1, show (2048 : ℕ) = 128 * 16 from rfl, sum_range_tiles]
  refine Finset.sum_congr rfl fun s _ => ?_
  rw [Finset.sum_range (fun j => f (tokOf (128 * s + j)))]

/-- The kernel's accumulated value at the end of a batch half: the zero it starts from plus the sixteen tiles of that
    half is the whole token sum of the row. -/
theorem total_eq_tiles (ra : SRa.Idx → EReal) (ean : SEan.Idx → EReal) (rn : SRn.Idx → EReal) (nn : SNn.Idx → EReal)
    (p : ℕ) (hp : p < 2) (r : Fin 8) (d : Fin 256) :
    zero + ∑ s ∈ Finset.range 16, tileSum ra ean rn nn (16 * p + s) r d
      = total ra ean rn nn (ix2 (rowOf (8 * p + r.val)) d) := by
  have hz : zero = 0 := Ideal.ofBits_zero_f32
  rw [hz, zero_add]
  show _ = ∑ l : Fin 2048, gated ra ean rn nn (rowOf (8 * p + r.val)) l d
  rw [sum_tiles]
  refine Finset.sum_congr rfl fun s hs => ?_
  have hs' : s < 16 := Finset.mem_range.mp hs
  unfold tileSum
  have e1 : (16 * p + s) / 16 = p := by omega
  have e2 : (16 * p + s) % 16 = s := by omega
  rw [e1, e2]

end Cert.GatedSum

end
-- ==== Proof.Payload.lean ====
/-
  One tile's arithmetic at an index.  The kernel body's one accumulating store writes, at row r and feature d of the
  [8,256] accumulator, the accumulator's previous value there plus the sum over the tile's 128 tokens j of the gated
  blend  (1 - nn(r,j)) · max_n (ra(r,j,n,d) · ean(r,j,n)) + nn(r,j) · rn(r,j,d),  the maximum over the 16 neighbours
  taken from -∞; the reset store writes zeros.
-/
import proofs.«107220_j77670188581209_1_alg».proof.Proof.Gen.KernelIdeal.Skeleton
import proofs.«107220_j77670188581209_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open Cert.GatedSum (one negInf zero)

/-- One token's blend inside a tile, from the four input blocks. -/
def blend (x0 : Vec Ideal S8x128x16x256 .f32) (x1 : Vec Ideal S8x128x16x1 .f32) (x2 : Vec Ideal S8x128x256 .f32)
    (x3 : Vec Ideal S8x128x1 .f32) (r : Fin 8) (j : Fin 128) (d : Fin 256) : EReal :=
  (one - x3 (ix3 r j (0 : Fin 1)))
      * (Finset.univ : Finset (Fin 16)).fold max negInf (fun n => x0 (ix4 r j n d) * x1 (ix4 r j n (0 : Fin 1)))
    + x3 (ix3 r j (0 : Fin 1)) * x2 (ix3 r j d)

/-- The reset store's value: zero everywhere. -/
theorem pay1_apply (i : S8x256.Idx) : k0_pay1 (F := Ideal) i = zero := rfl

/-- The accumulating store's value at (r, d). -/
theorem pay2_apply (x0 : Vec Ideal S8x128x16x256 .f32) (x1 : Vec Ideal S8x128x16x1 .f32) (x2 : Vec Ideal S8x128x256 .f32)
    (x3 : Vec Ideal S8x128x1 .f32) (acc : Vec Ideal S8x256 .f32) (r : Fin 8) (d : Fin 256) :
    k0_pay2 (F := Ideal) x0 x1 x2 x3 acc (ix2 r d) = acc (ix2 r d) + ∑ j : Fin 128, blend x0 x1 x2 x3 r j d := by
  unfold k0_pay2
  simp only [shapeCast_self]
  refine (addf_apply _ _ _).trans (congrArg (acc (ix2 r d) + ·) ?_)
  refine (Ideal.multiReduction_add_single _ _ _ _ _ (ix2 r d)).trans ?_
  show ∑ j : Fin 128, _ = _
  refine Finset.sum_congr rfl fun j _ => ?_
  have hl : reduces_S8x128x256_S8x256.lift (ix2 r d) j = ix3 r j d :=
    funext fun a => Fin.ext (by match a with | ⟨0, _⟩ => rfl | ⟨1, _⟩ => rfl | ⟨2, _⟩ => rfl)
  rw [hl]
  -- the gate and its complement are broadcast along the feature axis
  have hb : ∀ (y : Vec Ideal S8x128x1 .f32),
      broadcastTo S8x128x256 y broadcasts_S8x128x1_S8x128x256 (ix3 r j d) = y (ix3 r j (0 : Fin 1)) := fun y =>
    broadcastTo_apply y broadcasts_S8x128x1_S8x128x256 (ix3 r j d) (ix3 r j (0 : Fin 1))
      (fun a => by match a with | ⟨0, _⟩ => rfl | ⟨1, _⟩ => rfl | ⟨2, _⟩ => rfl)
  -- the neighbour maximum at (r, j, d)
  have hm : multiReduction (F := Ideal) FKind.maximumf [2] S8x128x256
        (mulf x0 (broadcastTo S8x128x16x256 x1 broadcasts_S8x128x16x1_S8x128x16x256)) (0xFF800000#32)
        reduces_S8x128x16x256_S8x128x256 (.inl rfl) rfl (ix3 r j d)
      = (Finset.univ : Finset (Fin 16)).fold max negInf (fun n => x0 (ix4 r j n d) * x1 (ix4 r j n (0 : Fin 1))) := by
    refine (Ideal.multiReduction_maximumf_single _ _ _ _ _ (ix3 r j d)).trans ?_
    show (Finset.univ : Finset (Fin 16)).fold max negInf _ = _
    refine congrArg (fun f => (Finset.univ : Finset (Fin 16)).fold max negInf f) (funext fun n => ?_)
    have hn : reduces_S8x128x16x256_S8x128x256.lift (ix3 r j d) n = ix4 r j n d :=
      funext fun a => Fin.ext (by match a with | ⟨0, _⟩ => rfl | ⟨1, _⟩ => rfl | ⟨2, _⟩ => rfl | ⟨3, _⟩ => rfl)
    rw [Function.comp_apply, hn]
    refine (mulf_apply _ _ _).trans (congrArg (x0 (ix4 r j n d) * ·) ?_)
    exact broadcastTo_apply x1 broadcasts_S8x128x16x1_S8x128x16x256 (ix4 r j n d) (ix4 r j n (0 : Fin 1))
      (fun a => by match a with | ⟨0, _⟩ => rfl | ⟨1, _⟩ => rfl | ⟨2, _⟩ => rfl | ⟨3, _⟩ => rfl)
  unfold blend
  refine (addf_apply _ _ _).trans ?_
  refine congrArg₂ (· + ·) ?_ ?_
  · refine (mulf_apply _ _ _).trans (congrArg₂ (· * ·) ?_ hm)
    exact (hb _).trans rfl
  · refine (mulf_apply _ _ _).trans (congrArg (· * x2 (ix3 r j d)) (hb x3))

end Cert.KernelIdeal.Tile

end
-- ==== Proof.Accum.lean ====
/-
  The kernel's result array, read off the frame run.  Grid position t = 16·p + s handles batch half p (rows 8p … 8p+7)
  and token tile s (tokens 128s … 128s+127).  The scratch accumulator is reset at s = 0 and grows by one tile's sum per
  position, so after position t it holds  0 + ∑_{s' ≤ s} (tile s' of half p);  at s = 15 the body copies it to the output
  block, which is written back to rows 8p … 8p+7 of the result.  Sixteen tiles are the whole token axis, so the result is
  the specification's 'total' of the four gathered arrays as the region finds them.
-/
import proofs.«107220_j77670188581209_1_alg».proof.Proof.Gen.KernelIdeal.Value
import proofs.«107220_j77670188581209_1_alg».proof.Proof.Pieces
import proofs.«107220_j77670188581209_1_alg».proof.Proof.Payload
import proofs.«107220_j77670188581209_1_alg».proof.Proof.Spec
import Idealize.ShloMosaic.Lib.Pipeline.Value
import Idealize.ShloMosaic.Lib.ValueIdx

noncomputable section

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.GatedSum (one negInf zero gated total tileSum rowOf tokOf)
open Cert.KernelIdeal.Tile (blend)

variable (m : (ℓ : Loc nD τ sig) → Buf (Elt Ideal) ℓ) (ρ : Dev nD → PrngReg)

/-! ## The arrays and the blocks, at their literal types -/

/-- The four gathered arrays as the region finds them. -/
abbrev ra (c : Dev nD) : Vec Ideal S16x2048x16x256 .f32 := V m c main_v33
abbrev ean (c : Dev nD) : Vec Ideal S16x2048x16x1 .f32 := V m c main_v40
abbrev rn (c : Dev nD) : Vec Ideal S16x2048x256 .f32 := V m c main_v47
abbrev nn (c : Dev nD) : Vec Ideal S16x2048x1 .f32 := V m c main_v54

/-- The four input blocks at a grid position. -/
abbrev blk0 (c : Dev nD) (t : Fin cfg0.N) : Vec Ideal S8x128x16x256 .f32 := iblk m c 0 t
abbrev blk1 (c : Dev nD) (t : Fin cfg0.N) : Vec Ideal S8x128x16x1 .f32 := iblk m c 1 t
abbrev blk2 (c : Dev nD) (t : Fin cfg0.N) : Vec Ideal S8x128x256 .f32 := iblk m c 2 t
abbrev blk3 (c : Dev nD) (t : Fin cfg0.N) : Vec Ideal S8x128x1 .f32 := iblk m c 3 t

/-- The printed index maps over the grid: block row = batch half, block column = token tile. -/
theorem idx_facts : ∀ t : Fin cfg0.N,
    win0_0.index t (0 : Fin 4) = t.val / 16 ∧ win0_0.index t (1 : Fin 4) = t.val % 16
      ∧ win0_0.index t (2 : Fin 4) = 0 ∧ win0_0.index t (3 : Fin 4) = 0
    ∧ win0_1.index t (0 : Fin 4) = t.val / 16 ∧ win0_1.index t (1 : Fin 4) = t.val % 16
      ∧ win0_1.index t (2 : Fin 4) = 0 ∧ win0_1.index t (3 : Fin 4) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = t.val % 16 ∧ win0_3.index t (2 : Fin 3) = 0
    ∧ win0_4.index t (0 : Fin 2) = t.val / 16 ∧ win0_4.index t (1 : Fin 2) = 0 :=
  (by decide +kernel : ∀ t : Fin grid0.N, _)

theorem lt_N (t : Fin cfg0.N) : t.val < 32 := lt_of_lt_of_eq t.isLt (show cfg0.N = 32 from N_0)

/-- Block (p, s) of the neighbour embeddings reads the array at row 8p + r, token 128s + j. -/
theorem blk0_apply (c : Dev nD) (t : Fin cfg0.N) (r : Fin 8) (j : Fin 128) (n : Fin 16) (d : Fin 256) :
    blk0 m c t (ix4 r j n d) = ra m c (ix4 (rowOf (8 * (t.val / 16) + r.val)) (tokOf (128 * (t.val % 16) + j.val)) n d) := by
  obtain ⟨e0, e1, e2, e3, -⟩ := idx_facts t
  have ht := lt_N t
  show V m c main_v33 (((cfg0.win 0).blk t).view.emb (ix4 r j n d)) = V m c main_v33 _
  refine congrArg (V m c main_v33) (funext fun a => Fin.ext ?_)
  match a with
  | ⟨0, _⟩ => show win0_0.index t (0 : Fin 4) * 8 + 1 * r.val = (8 * (t.val / 16) + r.val) % 16; have := r.isLt; omega
  | ⟨1, _⟩ => show win0_0.index t (1 : Fin 4) * 128 + 1 * j.val = (128 * (t.val % 16) + j.val) % 2048; have := j.isLt; omega
  | ⟨2, _⟩ => show win0_0.index t (2 : Fin 4) * 16 + 1 * n.val = n.val; omega
  | ⟨3, _⟩ => show win0_0.index t (3 : Fin 4) * 256 + 1 * d.val = d.val; omega

/-- The same for the edge weights, -/
theorem blk1_apply (c : Dev nD) (t : Fin cfg0.N) (r : Fin 8) (j : Fin 128) (n : Fin 16) :
    blk1 m c t (ix4 r j n (0 : Fin 1)) = ean m c (ix4 (rowOf (8 * (t.val / 16) + r.val)) (tokOf (128 * (t.val % 16) + j.val)) n (0 : Fin 1)) := by
  obtain ⟨-, -, -, -, e0, e1, e2, e3, -⟩ := idx_facts t
  have ht := lt_N t
  show V m c main_v40 (((cfg0.win 1).blk t).view.emb (ix4 r j n (0 : Fin 1))) = V m c main_v40 _
  refine congrArg (V m c main_v40) (funext fun a => Fin.ext ?_)
  match a with
  | ⟨0, _⟩ => show win0_1.index t (0 : Fin 4) * 8 + 1 * r.val = (8 * (t.val / 16) + r.val) % 16; have := r.isLt; omega
  | ⟨1, _⟩ => show win0_1.index t (1 : Fin 4) * 128 + 1 * j.val = (128 * (t.val % 16) + j.val) % 2048; have := j.isLt; omega
  | ⟨2, _⟩ => show win0_1.index t (2 : Fin 4) * 16 + 1 * n.val = n.val; omega
  | ⟨3, _⟩ => show win0_1.index t (3 : Fin 4) * 1 + 1 * 0 = 0; omega

/-- the node's own embedding, -/
theorem blk2_apply (c : Dev nD) (t : Fin cfg0.N) (r : Fin 8) (j : Fin 128) (d : Fin 256) :
    blk2 m c t (ix3 r j d) = rn m c (ix3 (rowOf (8 * (t.val / 16) + r.val)) (tokOf (128 * (t.val % 16) + j.val)) d) := by
  obtain ⟨-, -, -, -, -, -, -, -, e0, e1, e2, -⟩ := idx_facts t
  have ht := lt_N t
  show V m c main_v47 (((cfg0.win 2).blk t).view.emb (ix3 r j d)) = V m c main_v47 _
  refine congrArg (V m c main_v47) (funext fun a => Fin.ext ?_)
  match a with
  | ⟨0, _⟩ => show win0_2.index t (0 : Fin 3) * 8 + 1 * r.val = (8 * (t.val / 16) + r.val) % 16; have := r.isLt; omega
  | ⟨1, _⟩ => show win0_2.index t (1 : Fin 3) * 128 + 1 * j.val = (128 * (t.val % 16) + j.val) % 2048; have := j.isLt; omega
  | ⟨2, _⟩ => show win0_2.index t (2 : Fin 3) * 256 + 1 * d.val = d.val; omega

/-- and the node gate. -/
theorem blk3_apply (c : Dev nD) (t : Fin cfg0.N) (r : Fin 8) (j : Fin 128) :
    blk3 m c t (ix3 r j (0 : Fin 1)) = nn m c (ix3 (rowOf (8 * (t.val / 16) + r.val)) (tokOf (128 * (t.val % 16) + j.val)) (0 : Fin 1)) := by
  obtain ⟨-, -, -, -, -, -, -, -, -, -, -, e0, e1, e2, -⟩ := idx_facts t
  have ht := lt_N t
  show V m c main_v54 (((cfg0.win 3).blk t).view.emb (ix3 r j (0 : Fin 1))) = V m c main_v54 _
  refine congrArg (V m c main_v54) (funext fun a => Fin.ext ?_)
  match a with
  | ⟨0, _⟩ => show win0_3.index t (0 : Fin 3) * 8 + 1 * r.val = (8 * (t.val / 16) + r.val) % 16; have := r.isLt; omega
  | ⟨1, _⟩ => show win0_3.index t (1 : Fin 3) * 128 + 1 * j.val = (128 * (t.val % 16) + j.val) % 2048; have := j.isLt; omega
  | ⟨2, _⟩ => show win0_3.index t (2 : Fin 3) * 1 + 1 * 0 = 0; omega

/-- So a token's blend inside block (p, s) is the specification's blend of token (8p + r, 128s + j). -/
theorem blend_blk (c : Dev nD) (t : Fin cfg0.N) (r : Fin 8) (j : Fin 128) (d : Fin 256) :
    blend (blk0 m c t) (blk1 m c t) (blk2 m c t) (blk3 m c t) r j d
      = gated (ra m c) (ean m c) (rn m c) (nn m c) (rowOf (8 * (t.val / 16) + r.val)) (tokOf (128 * (t.val % 16) + j.val)) d := by
  unfold blend gated Cert.GatedSum.nbrMax
  rw [blk3_apply, blk2_apply]
  refine congrArg₂ (· + ·) (congrArg ((one - _) * ·) ?_) rfl
  refine congrArg (fun f => (Finset.univ : Finset (Fin 16)).fold max negInf f) (funext fun n => ?_)
  rw [blk0_apply, blk1_apply]

end Cert.KernelIdeal.Accum

end
-- ==== Proof.Fold.lean ====
/-
  The accumulation across the grid.  Position n adds its tile's sum 'tileAt n' to the scratch accumulator (after a reset
  to zero at the first tile of a batch half), so after position t = 16·p + s the accumulator is
  0 + ∑_{s' ≤ s} tileAt (16·p + s'); at s = 15 the output block is a copy of it and is written back to rows 8p … 8p+7,
  and the two batch halves' blocks cover the [16,256] result.
-/
import proofs.«107220_j77670188581209_1_alg».proof.Proof.Accum

noncomputable section

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.GatedSum (one negInf zero gated total tileSum rowOf tokOf)
open Cert.KernelIdeal.Tile (blend)
open Cert.KernelIdeal.Value (scAt0_0)

variable (m : (ℓ : Loc nD τ sig) → Buf (Elt Ideal) ℓ) (ρ : Dev nD → PrngReg)

/-- What grid position n adds to the accumulator at (r, d): its tile's sum over the position's blocks (nothing past
    the grid). -/
def tileAt (c : Dev nD) (n : ℕ) (i : S8x256.Idx) : EReal :=
  if h : n < cfg0.N then
    ∑ j : Fin 128, blend (blk0 m c ⟨n, h⟩) (blk1 m c ⟨n, h⟩) (blk2 m c ⟨n, h⟩) (blk3 m c ⟨n, h⟩) (i 0) j (i 1)
  else 0

/-- It is the specification's tile sum of the gathered arrays. -/
theorem tileAt_eq (c : Dev nD) (n : ℕ) (hn : n < cfg0.N) (r : Fin 8) (d : Fin 256) :
    tileAt m c n (ix2 r d) = tileSum (ra m c) (ean m c) (rn m c) (nn m c) n r d := by
  unfold tileAt tileSum
  rw [dif_pos hn]
  exact Finset.sum_congr rfl fun j _ => blend_blk m c ⟨n, hn⟩ r j d

/-- At the first tile of a batch half the accumulator ends at zero plus the tile, whatever it held. -/
theorem sc_first_apply (c : Dev nD) (n : ℕ) (hb : n < cfg0.N) (h0 : n % 16 = 0) (acc : Vec Ideal S8x256 .f32)
    (i : S8x256.Idx) : scAt0_0 m c n hb acc i = zero + tileAt m c n i := by
  have h1 : ¬n % 16 = 15 := by omega
  unfold Cert.KernelIdeal.Value.scAt0_0
  rw [dif_pos h0, dif_neg h1]
  refine (congrFun (Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h))
    (blk0 m c (⟨n, hb⟩ : Fin cfg0.N)) (blk1 m c (⟨n, hb⟩ : Fin cfg0.N)) (blk2 m c (⟨n, hb⟩ : Fin cfg0.N)) (blk3 m c (⟨n, hb⟩ : Fin cfg0.N))) i).trans ?_
  obtain ⟨r, d, rfl⟩ : ∃ (r : Fin 8) (d : Fin 256), i = ix2 r d := ⟨i 0, i 1, eq_ix2 i⟩
  rw [Tile.pay2_apply, Tile.pay1_apply]
  unfold tileAt
  rw [dif_pos hb]

/-- At every later tile it ends at what it held plus the tile. -/
theorem sc_step_apply (c : Dev nD) (n : ℕ) (hb : n < cfg0.N) (h0 : ¬n % 16 = 0) (acc : Vec Ideal S8x256 .f32)
    (i : S8x256.Idx) : scAt0_0 m c n hb acc i = acc i + tileAt m c n i := by
  obtain ⟨r, d, rfl⟩ : ∃ (r : Fin 8) (d : Fin 256), i = ix2 r d := ⟨i 0, i 1, eq_ix2 i⟩
  unfold Cert.KernelIdeal.Value.scAt0_0
  by_cases h1 : n % 16 = 15
  · rw [dif_neg h0, dif_pos h1]
    refine (congrFun (Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1)
      (blk0 m c (⟨n, hb⟩ : Fin cfg0.N)) (blk1 m c (⟨n, hb⟩ : Fin cfg0.N)) (blk2 m c (⟨n, hb⟩ : Fin cfg0.N)) (blk3 m c (⟨n, hb⟩ : Fin cfg0.N)) acc) (ix2 r d)).trans ?_
    rw [Tile.pay2_apply]
    unfold tileAt
    rw [dif_pos hb]
  · rw [dif_neg h0, dif_neg h1]
    refine (congrFun (Pieces.acc_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h))
      (blk0 m c (⟨n, hb⟩ : Fin cfg0.N)) (blk1 m c (⟨n, hb⟩ : Fin cfg0.N)) (blk2 m c (⟨n, hb⟩ : Fin cfg0.N)) (blk3 m c (⟨n, hb⟩ : Fin cfg0.N)) acc) (ix2 r d)).trans ?_
    rw [Tile.pay2_apply]
    unfold tileAt
    rw [dif_pos hb]

/-- So after position t the accumulator is zero plus the tiles of its batch half so far. -/
theorem scratch_after (c : Dev nD) (t : Fin cfg0.N) (i : S8x256.Idx) :
    (outsAt0 m c t.val t.isLt).2 i
      = zero + ∑ s ∈ Finset.range (t.val % 16 + 1), tileAt m c (16 * (t.val / 16) + s) i := by
  rw [Cert.KernelIdeal.Value.soutsAt0_0_eq m c t]
  exact Pipeline.accAt_add_apply (ι := S8x256.Idx) (β := EReal)
    (fun n h => scAt0_0 m c n h (VS0_0.read (Elt Ideal) VS0_0.junk)) (scAt0_0 m c) (fun _ => zero) (tileAt m c)
    (16 * (t.val / 16)) 15
    (fun h i => sc_first_apply m c _ h (by omega) _ i)
    (fun n h acc i hlt hle => sc_step_apply m c n h (by omega) acc i)
    (t.val % 16) (by omega) _ i

/-- At the last tile of a batch half the output block is a copy of the accumulator. -/
theorem out_eq_scratch (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t)
      (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (iblk m c 0 t) (iblk m c 1 t) (iblk m c 2 t) (iblk m c 3 t)
      (outsAt0 m c (t.val - 1) (Nat.lt_of_le_of_lt (Nat.sub_le _ _) t.isLt)).2).symm

/-- … which by then is the whole token sum of rows 8p … 8p+7. -/
theorem out_last_apply (c : Dev nD) (t : Fin cfg0.N) (h1 : t.val % 16 = 15) (r : Fin 8) (d : Fin 256) :
    (outsAt0 m c t.val t.isLt).1 (ix2 r d)
      = total (ra m c) (ean m c) (rn m c) (nn m c) (ix2 (rowOf (8 * (t.val / 16) + r.val)) d) := by
  have ht := lt_N t
  have hN : cfg0.N = 32 := N_0
  rw [out_eq_scratch m c t h1, scratch_after m c t (ix2 r d), h1,
    ← Cert.GatedSum.total_eq_tiles (ra m c) (ean m c) (rn m c) (nn m c) (t.val / 16) (by omega) r d]
  refine congrArg (zero + ·) (Finset.sum_congr rfl fun s hs => ?_)
  have hs' : s < 16 := Finset.mem_range.mp hs
  exact tileAt_eq m c _ (by omega) r d

end Cert.KernelIdeal.Accum

end
-- ==== Proof.Result.lean ====
/-
  The result array after the run.  Only the last tile of each batch half writes its output block back; block p is rows
  8p … 8p+7 of the [16,256] result, and what is written is the whole token sum of those rows, so the two write-backs
  cover the result and it ends at the specification's 'total' of the gathered arrays.
-/
import proofs.«107220_j77670188581209_1_alg».proof.Proof.Fold

noncomputable section

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.GatedSum (total rowOf)

variable (m : (ℓ : Loc nD τ sig) → Buf (Elt Ideal) ℓ) (ρ : Dev nD → PrngReg)

/-- The result array's contents: the specification of the four gathered arrays. -/
abbrev result (c : Dev nD) : Buf (Elt Ideal) ((c : Thread nD τ).loc main_v55) :=
  total (ra m c) (ean m c) (rn m c) (nn m c)

/-- What a writing position writes back is its block of 'result'. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  obtain ⟨-, -, -, -, -, -, -, -, -, -, -, -, -, -, e0, e1⟩ := idx_facts t
  have ht := lt_N t
  rw [Cert.KernelIdeal.Value.flushed4]
  funext j
  obtain ⟨r, d, rfl⟩ : ∃ (r : Fin 8) (d : Fin 256), j = ix2 r d := ⟨j 0, j 1, eq_ix2 j⟩
  show (outsAt0 m c t.val t.isLt).1 (ix2 r d)
    = total (ra m c) (ean m c) (rn m c) (nn m c) (((cfg0.win 4).blk t).view.emb (ix2 r d))
  rw [out_last_apply m c t h1 r d]
  refine congrArg (total (ra m c) (ean m c) (rn m c) (nn m c)) (funext fun a => Fin.ext ?_)
  match a with
  | ⟨0, _⟩ => show (8 * (t.val / 16) + r.val) % 16 = win0_4.index t (0 : Fin 2) * 8 + 1 * r.val; have := r.isLt; omega
  | ⟨1, _⟩ => show d.val = win0_4.index t (1 : Fin 2) * 256 + 1 * d.val; omega

/-- Every index of the result lies in the block its batch half's last tile writes back. -/
theorem cover (c : Dev nD) (i : S16x256.Idx) :
    ∃ t : Fin cfg0.N, (cfg0.win 4).flush t = true ∧ i ∈ ((cfg0.win 4).blk t).view.set := by
  have hN : cfg0.N = 32 := N_0
  have hi0 : (i 0).val < 16 := (i 0).isLt
  have hi1 : (i 1).val < 256 := (i 1).isLt
  obtain ⟨t, ht⟩ : ∃ t : Fin cfg0.N, t.val = 16 * ((i 0).val / 8) + 15 := ⟨⟨_, by omega⟩, rfl⟩
  obtain ⟨-, -, -, -, -, -, -, -, -, -, -, -, -, -, e0, e1⟩ := idx_facts t
  refine ⟨t, (flush0_4 t).mpr (by omega), ?_⟩
  show i ∈ ((View.whole main_v55).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 256 ≤ (i 1).val ∧ (i 1).val < win0_4.index t (1 : Fin 2) * 256 + 256
    omega

/-- So the result array ends at 'result'. -/
theorem final (c : Dev nD) : (dats m 0 c).arrAt 4 cfg0.N = result m c :=
  (dats m 0 c).arrAt_eq_of_cover 4 (result m c) (flushed_eq m c) (cover c)

/-- The kernel's run, read: the result array at 'result', the arguments unchanged. -/
theorem run : θ_run defs (onTc (τ := τ) (main (F := Ideal))) ⟨m, fun _ => 0, ρ⟩ fun r => ∀ c : Dev nD,
      r.2.mem ((c : Thread nD τ).loc main_v55) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Accum

end
-- ==== Proof.Glue.lean ====
/-
  The gathered arrays are the same functions of the inputs in both programs.  Before the kernel region the program
  computes the neighbour ids (a zero-padded sliding window of 16 offsets), the edge ids (id · 8000 + neighbour, zero where
  the neighbour is the padding id) and gathers the four arrays; the reference spells the very same operations.  So each
  array the region finds is the reference's corresponding stage of the inputs.
-/
import proofs.«107220_j77670188581209_1_alg».proof.Proof.Accum
import proofs.«107220_j77670188581209_1_alg».proof.Proof.Gen.ReferenceIdeal.Read
import Idealize.ShloMosaic.Lib.StableHlo.Run

noncomputable section

namespace Cert.KernelIdeal.Accum

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
/-- The neighbour embeddings: the embedding table gathered at the neighbour ids. -/
theorem ra_eq (c : Dev nD) :
    ra m c = Cert.ReferenceIdeal.Read.val_main_v33 (F := Ideal) (m ((c : Thread nD τ).loc main_arg0)) (m ((c : Thread nD τ).loc main_arg1)) := by
  show StableHlo.after (List.flatten [hostOps0, hostOps0_1, hostOps0_2, hostOps0_3, hostOps0_4]) (fun b => m (c, b))
    (Proc.devRef .tc main_v33) = _
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 8000000 in
/-- The edge weights: the edge table gathered at the edge ids. -/
theorem ean_eq (c : Dev nD) :
    ean m c = Cert.ReferenceIdeal.Read.val_main_v40 (F := Ideal) (m ((c : Thread nD τ).loc main_arg0)) (m ((c : Thread nD τ).loc main_arg2)) := by
  show StableHlo.after (List.flatten [hostOps0, hostOps0_1, hostOps0_2, hostOps0_3, hostOps0_4]) (fun b => m (c, b))
    (Proc.devRef .tc main_v40) = _
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 8000000 in
/-- The node's own embedding: the embedding table gathered at the ids. -/
theorem rn_eq (c : Dev nD) :
    rn m c = Cert.ReferenceIdeal.Read.val_main_v50 (F := Ideal) (m ((c : Thread nD τ).loc main_arg0)) (m ((c : Thread nD τ).loc main_arg1)) := by
  show StableHlo.after (List.flatten [hostOps0, hostOps0_1, hostOps0_2, hostOps0_3, hostOps0_4]) (fun b => m (c, b))
    (Proc.devRef .tc main_v47) = _
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 8000000 in
/-- The node gate: the gate table gathered at the ids. -/
theorem nn_eq (c : Dev nD) :
    nn m c = Cert.ReferenceIdeal.Read.val_main_v57 (F := Ideal) (m ((c : Thread nD τ).loc main_arg0)) (m ((c : Thread nD τ).loc main_arg3)) := by
  show StableHlo.after (List.flatten [hostOps0, hostOps0_1, hostOps0_2, hostOps0_3, hostOps0_4]) (fun b => m (c, b))
    (Proc.devRef .tc main_v54) = _
  simp only [hostOps0, hostOps0_1, hostOps0_2, hostOps0_3, hostOps0_4, List.flatten_cons, List.flatten_nil, List.append_nil,
    List.cons_append, List.nil_append]
  after_results_simp
  rfl

end Cert.KernelIdeal.Accum

end
-- ==== Proof.RefSide.lean ====
/-
  The reference, read at an index.  After its four gathers the reference multiplies the neighbour embeddings by the
  broadcast edge weights, takes the maximum over the 16 neighbours from -∞, blends with the node's own embedding by the
  gate, and sums over the 2048 tokens from 0: at (b, d) that is the specification's 'total' of its own gathered arrays.
-/
import proofs.«107220_j77670188581209_1_alg».proof.Proof.Gen.ReferenceIdeal.Read
import proofs.«107220_j77670188581209_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.GatedSum (one negInf zero nbrMax gated total)

variable (x0 : (⟨S16x2048, .i32⟩ : BufTy).Contents (Elt Ideal)) (x1 : (⟨S8000x256, .f32⟩ : BufTy).Contents (Elt Ideal))
  (x2 : (⟨S64000001x1, .f32⟩ : BufTy).Contents (Elt Ideal)) (x3 : (⟨S8000x1, .f32⟩ : BufTy).Contents (Elt Ideal))

/-- The host's maximum over the neighbour axis at (b, l, d). -/
theorem max_apply (b : Fin 16) (l : Fin 2048) (d : Fin 256) :
    val_main_v43 (F := Ideal) x0 x1 x2 (ix3 b l d)
      = nbrMax (val_main_v33 (F := Ideal) x0 x1) (val_main_v40 (F := Ideal) x0 x2) b l d := by
  unfold val_main_v43 nbrMax
  have hred : S16x2048x16x256.Reduces [2] S16x2048x256 := by decide
  refine (Host.reduce_eq_fold_single (FloatOps.maximumf (F := Ideal) (φ := .f32)) _ _
    reducesTo_S16x2048x16x256_S16x2048x256_d2 hred h_S_ (ix3 b l d)).trans ?_
  show (Finset.univ : Finset (Fin 16)).fold max negInf _ = _
  refine congrArg (fun f => (Finset.univ : Finset (Fin 16)).fold max negInf f) (funext fun (n : Fin 16) => ?_)
  have hn : hred.lift (ix3 b l d) n = ix4 b l n d :=
    funext fun a => Fin.ext (by match a with | ⟨0, _⟩ => rfl | ⟨1, _⟩ => rfl | ⟨2, _⟩ => rfl | ⟨3, _⟩ => rfl)
  have h41 : idx_main_v41 (ix4 b l n d) = ix4 b l n (0 : Fin 1) :=
    funext fun a => by match a with | ⟨0, _⟩ => rfl | ⟨1, _⟩ => rfl | ⟨2, _⟩ => rfl | ⟨3, _⟩ => rfl
  show val_main_v42 (F := Ideal) x0 x1 x2 (hred.lift (ix3 b l d) n) = _
  rw [hn, val_main_v42_apply, val_main_v41_apply, h41]
  rfl

/-- The reference's result is the specification of its gathered arrays. -/
theorem result_eq :
    val_main_v65 (F := Ideal) x0 x1 x2 x3
      = total (val_main_v33 (F := Ideal) x0 x1) (val_main_v40 (F := Ideal) x0 x2) (val_main_v50 (F := Ideal) x0 x1)
          (val_main_v57 (F := Ideal) x0 x3) := by
  funext i
  obtain ⟨b, d, rfl⟩ : ∃ (b : Fin 16) (d : Fin 256), i = ix2 b d := ⟨i 0, i 1, eq_ix2 i⟩
  rw [val_main_v65_apply]
  have hz : (val_main_cst_15 (F := Ideal)) (Shape.Idx.first h_S_) = 0 := Ideal.ofBits_zero_f32
  rw [hz, zero_add]
  unfold total
  refine Finset.sum_congr rfl fun l _ => ?_
  have hi : idx_main_v65 (ix2 b d) l = ix3 b l d :=
    funext fun a => by match a with | ⟨0, _⟩ => rfl | ⟨1, _⟩ => rfl | ⟨2, _⟩ => rfl
  have h60 : idx_main_v60 (ix3 b l d) = ix3 b l (0 : Fin 1) :=
    funext fun a => by match a with | ⟨0, _⟩ => rfl | ⟨1, _⟩ => rfl | ⟨2, _⟩ => rfl
  have h62 : idx_main_v62 (ix3 b l d) = ix3 b l (0 : Fin 1) :=
    funext fun a => by match a with | ⟨0, _⟩ => rfl | ⟨1, _⟩ => rfl | ⟨2, _⟩ => rfl
  rw [hi, val_main_v64_apply, val_main_v61_apply, val_main_v63_apply, val_main_v60_apply, val_main_v62_apply,
    val_main_v59_apply, val_main_v58_apply, max_apply, h60, h62]
  rfl

end Cert.ReferenceIdeal.RefValue

end
-- ==== Proof.lean ====
/-
  The certificate for the gated neighbour-max reduction.

  Both programs first gather, on the host and by the same operations, the neighbour embeddings Ra [16,2048,16,256], the
  edge weights Ean [16,2048,16,1], the node's own embedding Rn [16,2048,256] and the node gate Nn [16,2048,1].  The
  reference then computes  out(b,d) = ∑_{l<2048} ((1 - Nn(b,l)) · max_{n<16} (Ra(b,l,n,d) · Ean(b,l,n)) + Nn(b,l) · Rn(b,l,d)).
  The kernel computes the same blend tile by tile: a (2,16) grid over batch halves and token tiles of 128, a scratch
  accumulator reset at the first tile of a half, increased by each tile's sum, and copied to the output block at the last
  tile.  Over the extended reals the sixteen tile sums added in order to zero are the sum over all 2048 tokens (addition
  there is commutative and associative), so the two results are equal index by index; no finiteness is needed.

  The three frames: the two kernels' are the generated frame runs; the reference's is its generated run with the result
  dropped.  The idealization rewrote nothing, so 'preserves' is trivial.
-/
import proofs.«107220_j77670188581209_1_alg».proof.Defs
import proofs.«107220_j77670188581209_1_alg».proof.Proof.Gen.Kernel
import proofs.«107220_j77670188581209_1_alg».proof.Proof.Gen.Kernel.Skeleton
import proofs.«107220_j77670188581209_1_alg».proof.Proof.Gen.Kernel.Launch
import proofs.«107220_j77670188581209_1_alg».proof.Proof.Gen.Kernel.Points
import proofs.«107220_j77670188581209_1_alg».proof.Proof.Gen.Kernel.Frame
import proofs.«107220_j77670188581209_1_alg».proof.Proof.Gen.KernelIdeal
import proofs.«107220_j77670188581209_1_alg».proof.Proof.Gen.KernelIdeal.Skeleton
import proofs.«107220_j77670188581209_1_alg».proof.Proof.Gen.KernelIdeal.Launch
import proofs.«107220_j77670188581209_1_alg».proof.Proof.Gen.KernelIdeal.Points
import proofs.«107220_j77670188581209_1_alg».proof.Proof.Gen.KernelIdeal.Frame
import proofs.«107220_j77670188581209_1_alg».proof.Proof.Gen.ReferenceIdeal
import proofs.«107220_j77670188581209_1_alg».proof.Proof.Gen.Pre_finite_inputs
import proofs.«107220_j77670188581209_1_alg».proof.Proof.Gen.KernelIdeal.Value
import proofs.«107220_j77670188581209_1_alg».proof.Proof.Gen.ReferenceIdeal.Run
import proofs.«107220_j77670188581209_1_alg».proof.Proof.Gen.ReferenceIdeal.Read
import proofs.«107220_j77670188581209_1_alg».proof.Proof.Result
import proofs.«107220_j77670188581209_1_alg».proof.Proof.Glue
import proofs.«107220_j77670188581209_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the specification's token sum of the same four gathered arrays of inputs that agree. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, Cert.ReferenceIdeal.RefValue.result_eq,
    (hagree c).1, (hagree c).2.1, (hagree c).2.2.1, (hagree c).2.2.2]
  show _ = Cert.GatedSum.total (Cert.KernelIdeal.Accum.ra m c) (Cert.KernelIdeal.Accum.ean m c)
    (Cert.KernelIdeal.Accum.rn m c) (Cert.KernelIdeal.Accum.nn m c)
  rw [Cert.KernelIdeal.Accum.ra_eq, Cert.KernelIdeal.Accum.ean_eq, Cert.KernelIdeal.Accum.rn_eq,
    Cert.KernelIdeal.Accum.nn_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
